-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S512x4096 : Shape := ⟨2, ![512, 4096]⟩
abbrev S4096 : Shape := ⟨1, ![4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x4096x4096 .f32) (main_arg1 : IVec S512x4096 32) (main_arg2 : FVec F S4096 .f32) (main_arg3 : FVec F S4096 .f32) (main_arg4 : FVec F S4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x4096x4096 : Shape := ⟨3, ![4, 4096, 4096]⟩
abbrev S512x4096 : Shape := ⟨2, ![512, 4096]⟩
abbrev S4096 : Shape := ⟨1, ![4096]⟩
abbrev S16384x4096 : Shape := ⟨2, ![16384, 4096]⟩
abbrev S1x4096 : Shape := ⟨2, ![1, 4096]⟩
abbrev S256x4096 : Shape := ⟨2, ![256, 4096]⟩
abbrev S512x512 : Shape := ⟨2, ![512, 512]⟩
abbrev S1x512 : Shape := ⟨2, ![1, 512]⟩
abbrev S256x512 : Shape := ⟨2, ![256, 512]⟩
abbrev S512x8x512 : Shape := ⟨3, ![512, 8, 512]⟩
abbrev S4096x512 : Shape := ⟨2, ![4096, 512]⟩
abbrev S512x1x512 : Shape := ⟨3, ![512, 1, 512]⟩

abbrev nBuf : Space → Nat
  | .hbm => 11
  | .vmem => 14
  | .smem => 0
  | _ => 0

abbrev bufTy : (tb : Table) → Fin (tcTables nBuf tb) → BufTy
  | .hbm, ⟨0, _⟩ => ⟨S4x4096x4096, .f32⟩
  | .hbm, ⟨1, _⟩ => ⟨S512x4096, .i32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S16384x4096, .f32⟩
  | .hbm, ⟨6, _⟩ => ⟨S1x4096, .f32⟩
  | .hbm, ⟨7, _⟩ => ⟨S1x4096, .f32⟩
  | .hbm, ⟨8, _⟩ => ⟨S1x4096, .f32⟩
  | .hbm, ⟨9, _⟩ => ⟨S16384x4096, .f32⟩
  | .hbm, ⟨10, _⟩ => ⟨S4x4096x4096, .f32⟩
  | .local _ .vmem, ⟨0, _⟩ => ⟨S256x4096, .f32⟩
  | .local _ .vmem, ⟨1, _⟩ => ⟨S256x4096, .f32⟩
  | .local _ .vmem, ⟨2, _⟩ => ⟨S512x512, .i32⟩
  | .local _ .vmem, ⟨3, _⟩ => ⟨S512x512, .i32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S256x512, .f32⟩
  | .local _ .vmem, ⟨11, _⟩ => ⟨S256x512, .f32⟩
  | .local _ .vmem, ⟨12, _⟩ => ⟨S512x8x512, .f32⟩
  | .local _ .vmem, ⟨13, _⟩ => ⟨S4096x512, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S4x4096x4096_S16384x4096 : S4x4096x4096.ShapeCasts S16384x4096
  shapeCasts_S4096_S1x4096 : S4096.ShapeCasts S1x4096
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x8x512_S512x1x512_0_0_0 : ∀ a, (![0, 0, 0] : Fin 3 → Nat) a + S512x1x512.size a ≤ S512x8x512.size a
  h_S512x1x512 : 0 < S512x1x512.numel
  shapeCasts_S512x1x512_S512x512 : S512x1x512.ShapeCasts S512x512
  shapeCasts_S512x512_S512x1x512 : S512x512.ShapeCasts S512x1x512
  inb_S512x8x512_S512x1x512_0_1_0 : ∀ a, (![0, 1, 0] : Fin 3 → Nat) a + S512x1x512.size a ≤ S512x8x512.size a
  inb_S512x8x512_S512x1x512_0_2_0 : ∀ a, (![0, 2, 0] : Fin 3 → Nat) a + S512x1x512.size a ≤ S512x8x512.size a
  inb_S512x8x512_S512x1x512_0_3_0 : ∀ a, (![0, 3, 0] : Fin 3 → Nat) a + S512x1x512.size a ≤ S512x8x512.size a
  inb_S512x8x512_S512x1x512_0_4_0 : ∀ a, (![0, 4, 0] : Fin 3 → Nat) a + S512x1x512.size a ≤ S512x8x512.size a
  inb_S512x8x512_S512x1x512_0_5_0 : ∀ a, (![0, 5, 0] : Fin 3 → Nat) a + S512x1x512.size a ≤ S512x8x512.size a
  inb_S512x8x512_S512x1x512_0_6_0 : ∀ a, (![0, 6, 0] : Fin 3 → Nat) a + S512x1x512.size a ≤ S512x8x512.size a
  inb_S512x8x512_S512x1x512_0_7_0 : ∀ a, (![0, 7, 0] : Fin 3 → Nat) a + S512x1x512.size a ≤ S512x8x512.size a
  inb_S512x8x512_S512x8x512_0_0_0 : ∀ a, (![0, 0, 0] : Fin 3 → Nat) a + S512x8x512.size a ≤ S512x8x512.size a
  h_S512x8x512 : 0 < S512x8x512.numel
  shapeCasts_S512x8x512_S4096x512 : S512x8x512.ShapeCasts S4096x512
  bitsLt_bf16_f32 : FTy.bits .bf16 < FTy.bits .f32
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  packedbf16_S4096x512_S4096x512_0_0 : (Rect.unit (s := S4096x512) ![0, 0] S4096x512.size inb_S4096x512_S4096x512_0_0).PackedRows (EltTy.packing .bf16)
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  broadcasts_S1x512_S256x512 : S1x512.Broadcasts S256x512
  inb_S256x512_S256x512_0_0 : ∀ a, (![0, 0] : Fin 2 → Nat) a + S256x512.size a ≤ S256x512.size a
  h_S256x512 : 0 < S256x512.numel
  shapeCasts_S16384x4096_S4x4096x4096 : S16384x4096.ShapeCasts S4x4096x4096
  dot_S256x4096_S4096x512_S256x512_1_0_0_1_n_n_wf : DotDims.WF S256x4096 S4096x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x4096.size a
  hwx0_1 : ∀ i : grid0.Coords, EltTy.bits .i32 = 32 ∨ (Rect.block (s := S512x4096) S512x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S16384x4096.size a
  hwx0_5 : ∀ i : grid0.Coords, EltTy.bits .f32 = 32 ∨ (Rect.block (s := S16384x4096) S256x512.size (cc0_transform_5 i) (hinb0_5 i)).WholeWords (EltTy.packing .f32)

variable [Facts₀]

def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S256x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S512x4096 : Shape := ⟨2, ![512, 4096]⟩
abbrev S4096 : Shape := ⟨1, ![4096]⟩
abbrev S_ : Shape := ⟨0, ![]⟩
abbrev S512x1x4096 : Shape := ⟨3, ![512, 1, 4096]⟩
abbrev S512x8x4096 : Shape := ⟨3, ![512, 8, 4096]⟩
abbrev S4096x4096 : Shape := ⟨2, ![4096, 4096]⟩
abbrev S1x4096 : Shape := ⟨2, ![1, 4096]⟩
abbrev S1x1x4096 : Shape := ⟨3, ![1, 1, 4096]⟩

abbrev nBuf : Space → Nat
  | .hbm => 74
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S512x4096, .i32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S_, .i32⟩
  | .hbm, ⟨6, _⟩ => ⟨S512x4096, .i32⟩
  | .hbm, ⟨7, _⟩ => ⟨S512x4096, .i32⟩
  | .hbm, ⟨8, _⟩ => ⟨S_, .i32⟩
  | .hbm, ⟨9, _⟩ => ⟨S512x4096, .i32⟩
  | .hbm, ⟨10, _⟩ => ⟨S512x4096, .i32⟩
  | .hbm, ⟨11, _⟩ => ⟨S_, .i32⟩
  | .hbm, ⟨12, _⟩ => ⟨S512x4096, .i32⟩
  | .hbm, ⟨13, _⟩ => ⟨S512x4096, .i32⟩
  | .hbm, ⟨14, _⟩ => ⟨S_, .i32⟩
  | .hbm, ⟨15, _⟩ => ⟨S512x4096, .i32⟩
  | .hbm, ⟨16, _⟩ => ⟨S512x4096, .i32⟩
  | .hbm, ⟨17, _⟩ => ⟨S_, .i32⟩
  | .hbm, ⟨18, _⟩ => ⟨S512x4096, .i32⟩
  | .hbm, ⟨19, _⟩ => ⟨S512x4096, .i32⟩
  | .hbm, ⟨20, _⟩ => ⟨S_, .i32⟩
  | .hbm, ⟨21, _⟩ => ⟨S512x4096, .i32⟩
  | .hbm, ⟨22, _⟩ => ⟨S512x4096, .i32⟩
  | .hbm, ⟨23, _⟩ => ⟨S_, .i32⟩
  | .hbm, ⟨24, _⟩ => ⟨S512x4096, .i32⟩
  | .hbm, ⟨25, _⟩ => ⟨S512x4096, .i32⟩
  | .hbm, ⟨26, _⟩ => ⟨S_, .i32⟩
  | .hbm, ⟨27, _⟩ => ⟨S512x4096, .i32⟩
  | .hbm, ⟨28, _⟩ => ⟨S512x4096, .i32⟩
  | .hbm, ⟨29, _⟩ => ⟨S_, .i32⟩
  | .hbm, ⟨30, _⟩ => ⟨S512x4096, .i32⟩
  | .hbm, ⟨31, _⟩ => ⟨S512x4096, .i32⟩
  | .hbm, ⟨32, _⟩ => ⟨S_, .i32⟩
  | .hbm, ⟨33, _⟩ => ⟨S512x4096, .i32⟩
  | .hbm, ⟨34, _⟩ => ⟨S512x4096, .i32⟩
  | .hbm, ⟨35, _⟩ => ⟨S_, .i32⟩
  | .hbm, ⟨36, _⟩ => ⟨S512x4096, .i32⟩
  | .hbm, ⟨37, _⟩ => ⟨S512x4096, .i32⟩
  | .hbm, ⟨38, _⟩ => ⟨S_, .i32⟩
  | .hbm, ⟨39, _⟩ => ⟨S512x4096, .i32⟩
  | .hbm, ⟨40, _⟩ => ⟨S512x4096, .i32⟩
  | .hbm, ⟨41, _⟩ => ⟨S_, .i32⟩
  | .hbm, ⟨42, _⟩ => ⟨S512x4096, .i32⟩
  | .hbm, ⟨43, _⟩ => ⟨S512x4096, .i32⟩
  | .hbm, ⟨44, _⟩ => ⟨S_, .i32⟩
  | .hbm, ⟨45, _⟩ => ⟨S512x4096, .i32⟩
  | .hbm, ⟨46, _⟩ => ⟨S512x4096, .i32⟩
  | .hbm, ⟨47, _⟩ => ⟨S_, .i32⟩
  | .hbm, ⟨48, _⟩ => ⟨S512x4096, .i32⟩
  | .hbm, ⟨49, _⟩ => ⟨S512x4096, .i32⟩
  | .hbm, ⟨50, _⟩ => ⟨S_, .i32⟩
  | .hbm, ⟨51, _⟩ => ⟨S512x4096, .i32⟩
  | .hbm, ⟨52, _⟩ => ⟨S512x4096, .i32⟩
  | .hbm, ⟨53, _⟩ => ⟨S512x1x4096, .i32⟩
  | .hbm, ⟨54, _⟩ => ⟨S512x1x4096, .i32⟩
  | .hbm, ⟨55, _⟩ => ⟨S512x1x4096, .i32⟩
  | .hbm, ⟨56, _⟩ => ⟨S512x1x4096, .i32⟩
  | .hbm, ⟨57, _⟩ => ⟨S512x1x4096, .i32⟩
  | .hbm, ⟨58, _⟩ => ⟨S512x1x4096, .i32⟩
  | .hbm, ⟨59, _⟩ => ⟨S512x1x4096, .i32⟩
  | .hbm, ⟨60, _⟩ => ⟨S512x1x4096, .i32⟩
  | .hbm, ⟨61, _⟩ => ⟨S512x8x4096, .i32⟩
  | .hbm, ⟨62, _⟩ => ⟨S4096x4096, .i32⟩
  | .hbm, ⟨63, _⟩ => ⟨S4096x4096, .f32⟩
  | .hbm, ⟨64, _⟩ => ⟨S1x4096, .f32⟩
  | .hbm, ⟨65, _⟩ => ⟨S4096x4096, .f32⟩
  | .hbm, ⟨66, _⟩ => ⟨S4096x4096, .f32⟩
  | .hbm, ⟨67, _⟩ => ⟨S1x4096, .f32⟩
  | .hbm, ⟨68, _⟩ => ⟨S4096x4096, .f32⟩
  | .hbm, ⟨69, _⟩ => ⟨S4096x4096, .f32⟩
  | .hbm, ⟨70, _⟩ => ⟨S4x4096x4096, .f32⟩
  | .hbm, ⟨71, _⟩ => ⟨S1x1x4096, .f32⟩
  | .hbm, ⟨72, _⟩ => ⟨S4x4096x4096, .f32⟩
  | .hbm, ⟨73, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_c_3 : Ref sig .tc := ⟨.hbm, 17, rfl⟩
abbrev main_v8 : Ref sig .tc := ⟨.hbm, 18, rfl⟩
abbrev main_v9 : Ref sig .tc := ⟨.hbm, 19, rfl⟩
abbrev main_c_4 : Ref sig .tc := ⟨.hbm, 20, rfl⟩
abbrev main_v10 : Ref sig .tc := ⟨.hbm, 21, rfl⟩
abbrev main_v11 : Ref sig .tc := ⟨.hbm, 22, rfl⟩
abbrev main_c_5 : Ref sig .tc := ⟨.hbm, 23, rfl⟩
abbrev main_v12 : Ref sig .tc := ⟨.hbm, 24, rfl⟩
abbrev main_v13 : Ref sig .tc := ⟨.hbm, 25, rfl⟩
abbrev main_c_6 : Ref sig .tc := ⟨.hbm, 26, rfl⟩
abbrev main_v14 : Ref sig .tc := ⟨.hbm, 27, rfl⟩
abbrev main_v15 : Ref sig .tc := ⟨.hbm, 28, rfl⟩
abbrev main_c_7 : Ref sig .tc := ⟨.hbm, 29, rfl⟩
abbrev main_v16 : Ref sig .tc := ⟨.hbm, 30, rfl⟩
abbrev main_v17 : Ref sig .tc := ⟨.hbm, 31, rfl⟩
abbrev main_c_8 : Ref sig .tc := ⟨.hbm, 32, rfl⟩
abbrev main_v18 : Ref sig .tc := ⟨.hbm, 33, rfl⟩
abbrev main_v19 : Ref sig .tc := ⟨.hbm, 34, rfl⟩
abbrev main_c_9 : Ref sig .tc := ⟨.hbm, 35, rfl⟩
abbrev main_v20 : Ref sig .tc := ⟨.hbm, 36, rfl⟩
abbrev main_v21 : Ref sig .tc := ⟨.hbm, 37, rfl⟩
abbrev main_c_10 : Ref sig .tc := ⟨.hbm, 38, rfl⟩
abbrev main_v22 : Ref sig .tc := ⟨.hbm, 39, rfl⟩
abbrev main_v23 : Ref sig .tc := ⟨.hbm, 40, rfl⟩
abbrev main_c_11 : Ref sig .tc := ⟨.hbm, 41, rfl⟩
abbrev main_v24 : Ref sig .tc := ⟨.hbm, 42, rfl⟩
abbrev main_v25 : Ref sig .tc := ⟨.hbm, 43, rfl⟩
abbrev main_c_12 : Ref sig .tc := ⟨.hbm, 44, rfl⟩
abbrev main_v26 : Ref sig .tc := ⟨.hbm, 45, rfl⟩
abbrev main_v27 : Ref sig .tc := ⟨.hbm, 46, rfl⟩
abbrev main_c_13 : Ref sig .tc := ⟨.hbm, 47, rfl⟩
abbrev main_v28 : Ref sig .tc := ⟨.hbm, 48, rfl⟩
abbrev main_v29 : Ref sig .tc := ⟨.hbm, 49, rfl⟩
abbrev main_c_14 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]

class Facts₀ : Prop where
  bcast_S_S512x4096 : S_.BroadcastsInDim S512x4096 (![] : Fin 0 → Fin S512x4096.rank)
  bcast_S512x4096_S512x1x4096_0_2 : S512x4096.BroadcastsInDim S512x1x4096 (![0, 2] : Fin 2 → Fin S512x1x4096.rank)
  concatenates_S512x1x4096_S512x1x4096_S512x1x4096_S512x1x4096_S512x1x4096_S512x1x4096_S512x1x4096_S512x1x4096_S512x8x4096_d1 : Shape.Concatenates [S512x1x4096, S512x1x4096, S512x1x4096, S512x1x4096, S512x1x4096, S512x1x4096, S512x1x4096, S512x1x4096] S512x8x4096 1
  shapeCasts_S512x8x4096_S4096x4096 : S512x8x4096.ShapeCasts S4096x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  dot_S4x4096x4096_S4096x4096_S4x4096x4096_2_0_01_1_n_n_wf : DotDims.WF S4x4096x4096 S4096x4096 S4x4096x4096 [2] [0] [0, 1] [1] [] []

variable [Facts₀]

def dot_S4x4096x4096_S4096x4096_S4x4096x4096_2_0_01_1_n_n : DotDims S4x4096x4096 S4096x4096 S4x4096x4096 where
  lhsContracting := [2]
  rhsContracting := [0]
  lhsNonContracting := [0, 1]
  rhsNonContracting := [1]
  lhsBatch := []
  rhsBatch := []
  wf := dot_S4x4096x4096_S4096x4096_S4x4096x4096_2_0_01_1_n_n_wf

class Facts : Prop extends Facts₀ where

variable [Facts]
-- ==== Proof.KernelPlanes.lean ====
/-
  The weight cache the kernel builds at the first grid point of every column tile.

  Each of the eight stores into the [512, 8, 512] scratch writes one plane `[:, k, :]`: at `(a, k, o)` the value
  `k` of packed word `(a, o)` of the tile, read as a float, less the channel's zero point, times its scale. Read
  back whole, the scratch is therefore ONE function of the packed block and the two per-channel rows
  (`cache`), whatever it held before.
-/
import proofs.«427034_j73821897883660_2_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx

namespace Cert.KernelIdeal.Planes

open Cert.KernelIdeal Cert.KernelIdeal.Gen

variable {F : FTy → Type} [FloatOps F]

/-- One dequantised element: the word shifted right by `sh` and masked with 15, as a float, minus `z`, times `s`. -/
def dq (sh q : BitVec 32) (z s : F .f32) : F .f32 :=
  FloatOps.mulf (FloatOps.subf (FloatOps.sitofp .f32 (IntOp.andi (IntOp.shrsi .vector q sh) 15#32)) z) s

/-- The plane a store writes, for shift amount `sh`: the body's operations on the packed block `v13`, the scale row
    `v15` and the zero-point row `v17`. -/
def plane (sh : BitVec 32) (v13 : Vec F S512x512 .i32) (v15 v17 : FVec F S1x512 .f32) : FVec F S512x1x512 .f32 :=
  shapeCast S512x1x512
    (mulf (subf (sitofp .f32 (andi (shrsi v13 (broadcast S512x512 sh)) (broadcast S512x512 15#32)))
        (broadcastTo S512x512 v17 Facts₀.broadcasts_S1x512_S512x512))
      (broadcastTo S512x512 v15 Facts₀.broadcasts_S1x512_S512x512))
    Facts₀.shapeCasts_S512x512_S512x1x512

/-- The eight stored payloads are the planes of shifts 0, 4, …, 28. -/
theorem pay7_eq (v13 : Vec F S512x512 .i32) (v14 v16 : Vec F S1x512 .f32) :
    k0_pay7 v13 v14 v16 = plane 0#32 v13 (k0_pay5 v14) (k0_pay6 v16) := rfl
theorem pay8_eq (v13 : Vec F S512x512 .i32) (v14 v16 : Vec F S1x512 .f32) :
    k0_pay8 v13 v14 v16 = plane 4#32 v13 (k0_pay5 v14) (k0_pay6 v16) := rfl
theorem pay10_eq (v13 : Vec F S512x512 .i32) (v14 v16 : Vec F S1x512 .f32) :
    k0_pay10 (k0_pay9 v13 v14 v16) = plane 8#32 v13 (k0_pay5 v14) (k0_pay6 v16) := rfl
theorem pay11_eq (v13 : Vec F S512x512 .i32) (v15 v17 : FVec F S1x512 .f32) :
    k0_pay11 v13 v15 v17 = plane 12#32 v13 v15 v17 := rfl
theorem pay12_eq (v13 : Vec F S512x512 .i32) (v15 v17 : FVec F S1x512 .f32) :
    k0_pay12 v13 v15 v17 = plane 16#32 v13 v15 v17 := rfl
theorem pay13_eq (v13 : Vec F S512x512 .i32) (v15 v17 : FVec F S1x512 .f32) :
    k0_pay13 v13 v15 v17 = plane 20#32 v13 v15 v17 := rfl
theorem pay1_eq (v13 : Vec F S512x512 .i32) (v15 v17 : FVec F S1x512 .f32) :
    k0_pay1 v13 v15 v17 24#32 = plane 24#32 v13 v15 v17 := rfl
theorem pay2_eq (v13 : Vec F S512x512 .i32) (v15 v17 : FVec F S1x512 .f32) :
    k0_pay2 v13 v15 v17 = plane 28#32 v13 v15 v17 := rfl
theorem pay5_eq (v14 : Vec F S1x512 .f32) : k0_pay5 v14 = v14 := shapeCast_self _ _
theorem pay6_eq (v16 : Vec F S1x512 .f32) : k0_pay6 v16 = v16 := shapeCast_self _ _

/-- A plane at `(a, 0, o)`: the element `dq` of word `(a, o)`, zero point `(0, o)` and scale `(0, o)`. -/
theorem plane_apply (sh : BitVec 32) (v13 : Vec F S512x512 .i32) (v15 v17 : FVec F S1x512 .f32)
    (y : S512x1x512.Idx) :
    plane sh v13 v15 v17 y
      = dq sh (v13 (ix2 (y 0) (y 2))) (v17 (ix2 (0 : Fin 1) (y 2))) (v15 (ix2 (0 : Fin 1) (y 2))) := by
  unfold plane
  refine (shapeCast_apply _ _ y (ix2 (y 0) (y 2)) ?_).trans ?_
  · rw [Shape.rowMajor_val_two, Shape.rowMajor_val_three]
    have h1 : (y 1).val < 1 := (y 1).isLt
    show (y 0).val * 512 + (y 2).val = ((y 0).val * 1 + (y 1).val) * 512 + (y 2).val
    omega
  · show FloatOps.mulf (FloatOps.subf (FloatOps.sitofp .f32 (IntOp.andi (IntOp.shrsi .vector (v13 (ix2 (y 0) (y 2))) sh) 15#32))
        (broadcastTo S512x512 v17 Facts₀.broadcasts_S1x512_S512x512 (ix2 (y 0) (y 2))))
        (broadcastTo S512x512 v15 Facts₀.broadcasts_S1x512_S512x512 (ix2 (y 0) (y 2))) = _
    have hb : ∀ (v : FVec F S1x512 .f32),
        broadcastTo S512x512 v Facts₀.broadcasts_S1x512_S512x512 (ix2 (y 0) (y 2)) = v (ix2 (0 : Fin 1) (y 2)) := fun v =>
      broadcastTo_apply v _ _ _ (fun a => by
        match a with
        | ⟨0, _⟩ => show (0 : Nat) = if (1 : Nat) = 1 then 0 else _; rw [if_pos rfl]
        | ⟨1, _⟩ => show (y 2).val = if (512 : Nat) = 1 then 0 else (y 2).val; rw [if_neg (by decide)])
    rw [hb, hb]
    rfl

end Cert.KernelIdeal.Planes

end
-- ==== Proof.KernelCache.lean ====
/-
  What each control case of the body leaves behind, as values.

  Case A (first row block of a column tile): the eight planes are stored, the scratch is read back whole
  (`Planes.cache`), cast, and stored into the carried bf16 scratch; the output block is then the product of the
  activation block with THAT scratch, plus the bias row. Case B (every other row block): the carried scratch is
  left as it was found, and the output block is the product with it.
-/
import proofs.«427034_j73821897883660_2_alg».proof.Proof.KernelPlanes

set_option maxRecDepth 16384

noncomputable section

open Idealize.ShloMosaic Idealize.ShloMosaic.TcCoe Idealize.SL.Sem Idealize.ShloMosaic.ValueIdx

namespace Cert.KernelIdeal.Planes

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The [512, 8, 512] scratch after the eight stores: at `(a, k, o)` the dequantised value `k` of word `(a, o)`. -/
def cache (x1 : Vec F S512x512 .i32) (x2 x3 : Vec F S1x512 .f32) : Vec F S512x8x512 .f32 :=
  fun y => dq (BitVec.ofNat 32 (4 * (y 1).val)) (x1 (ix2 (y 0) (y 2))) (x3 (ix2 (0 : Fin 1) (y 2))) (x2 (ix2 (0 : Fin 1) (y 2)))

/-- The plane of shift `4k`, at a position of the rectangle `[:, k, :]`, is the cache there. -/
theorem plane_eq_cache (k : Nat) (sh : BitVec 32) (hsh : sh = BitVec.ofNat 32 (4 * k))
    (inb : ∀ a, (![0, k, 0] : Fin 3 → Nat) a + S512x1x512.size a ≤ S512x8x512.size a)
    (x1 : Vec F S512x512 .i32) (x2 x3 : Vec F S1x512 .f32) (x : S512x1x512.Idx) :
    plane sh x1 x2 x3 x = cache x1 x2 x3 ((Rect.unit (s := S512x8x512) ![0, k, 0] S512x1x512.size inb).emb x) := by
  subst hsh
  rw [plane_apply]
  unfold cache
  have e0 : ((Rect.unit (s := S512x8x512) ![0, k, 0] S512x1x512.size inb).emb x 0 : Nat) = (x 0).val := by
    rw [Rect.emb_apply]; show 0 + 1 * (x 0).val = _; omega
  have e1 : ((Rect.unit (s := S512x8x512) ![0, k, 0] S512x1x512.size inb).emb x 1 : Nat) = k := by
    rw [Rect.emb_apply]; have : (x 1).val < 1 := (x 1).isLt; show k + 1 * (x 1).val = _; omega
  have e2 : ((Rect.unit (s := S512x8x512) ![0, k, 0] S512x1x512.size inb).emb x 2 : Nat) = (x 2).val := by
    rw [Rect.emb_apply]; show 0 + 1 * (x 2).val = _; omega
  have f0 : (Rect.unit (s := S512x8x512) ![0, k, 0] S512x1x512.size inb).emb x 0 = x 0 := Fin.ext e0
  have f2 : (Rect.unit (s := S512x8x512) ![0, k, 0] S512x1x512.size inb).emb x 2 = x 2 := Fin.ext e2
  rw [e1, f0, f2]

/-- The eight planes as the list of stores the body makes, last first. -/
abbrev planes8 (x1 : Vec F S512x512 .i32) (x2 x3 : Vec F S1x512 .f32) : List (View.Piece (Elt F) S512x8x512 .f32) :=
  [⟨Rect.unit ![0, 7, 0] S512x1x512.size Facts₀.inb_S512x8x512_S512x1x512_0_7_0, plane 28#32 x1 x2 x3⟩,
   ⟨Rect.unit ![0, 6, 0] S512x1x512.size Facts₀.inb_S512x8x512_S512x1x512_0_6_0, plane 24#32 x1 x2 x3⟩,
   ⟨Rect.unit ![0, 5, 0] S512x1x512.size Facts₀.inb_S512x8x512_S512x1x512_0_5_0, plane 20#32 x1 x2 x3⟩,
   ⟨Rect.unit ![0, 4, 0] S512x1x512.size Facts₀.inb_S512x8x512_S512x1x512_0_4_0, plane 16#32 x1 x2 x3⟩,
   ⟨Rect.unit ![0, 3, 0] S512x1x512.size Facts₀.inb_S512x8x512_S512x1x512_0_3_0, plane 12#32 x1 x2 x3⟩,
   ⟨Rect.unit ![0, 2, 0] S512x1x512.size Facts₀.inb_S512x8x512_S512x1x512_0_2_0, plane 8#32 x1 x2 x3⟩,
   ⟨Rect.unit ![0, 1, 0] S512x1x512.size Facts₀.inb_S512x8x512_S512x1x512_0_1_0, plane 4#32 x1 x2 x3⟩,
   ⟨Rect.unit ![0, 0, 0] S512x1x512.size Facts₀.inb_S512x8x512_S512x1x512_0_0_0, plane 0#32 x1 x2 x3⟩]

/-- The eight rectangles `[:, k, :]` tile the scratch. -/
theorem planes8_cover (x1 : Vec F S512x512 .i32) (x2 x3 : Vec F S1x512 .f32) :
    ∀ y : S512x8x512.Idx, ∃ p ∈ planes8 x1 x2 x3, y ∈ p.1.set :=
  View.cover_of_tiledL (planes8 x1 x2 x3) S512x1x512.size (by sl_kernel_rfl)

/-- Every plane agrees with the cache on its rectangle. -/
theorem planes8_agree (x1 : Vec F S512x512 .i32) (x2 x3 : Vec F S1x512 .f32) :
    ∀ p ∈ planes8 x1 x2 x3, ∀ x : p.1.shape.Idx, p.2 x = cache x1 x2 x3 (p.1.emb x) := by
  intro p hp
  simp only [List.mem_cons, List.mem_nil_iff, or_false] at hp
  rcases hp with rfl | rfl | rfl | rfl | rfl | rfl | rfl | rfl
  · exact fun x => plane_eq_cache 7 _ rfl Facts₀.inb_S512x8x512_S512x1x512_0_7_0 x1 x2 x3 x
  · exact fun x => plane_eq_cache 6 _ rfl Facts₀.inb_S512x8x512_S512x1x512_0_6_0 x1 x2 x3 x
  · exact fun x => plane_eq_cache 5 _ rfl Facts₀.inb_S512x8x512_S512x1x512_0_5_0 x1 x2 x3 x
  · exact fun x => plane_eq_cache 4 _ rfl Facts₀.inb_S512x8x512_S512x1x512_0_4_0 x1 x2 x3 x
  · exact fun x => plane_eq_cache 3 _ rfl Facts₀.inb_S512x8x512_S512x1x512_0_3_0 x1 x2 x3 x
  · exact fun x => plane_eq_cache 2 _ rfl Facts₀.inb_S512x8x512_S512x1x512_0_2_0 x1 x2 x3 x
  · exact fun x => plane_eq_cache 1 _ rfl Facts₀.inb_S512x8x512_S512x1x512_0_1_0 x1 x2 x3 x
  · exact fun x => plane_eq_cache 0 _ rfl Facts₀.inb_S512x8x512_S512x1x512_0_0_0 x1 x2 x3 x

/-- Read back whole after the eight stores, the scratch is the cache, whatever it held before. -/
theorem readback (v : View sig .tc .vmem S512x8x512 .f32) (x1 : Vec F S512x512 .i32) (x2 x3 : Vec F S1x512 .f32) :
    v.readCov (planes8 x1 x2 x3) (Rect.unit (s := S512x8x512) ![0, 0, 0] S512x8x512.size Facts₀.inb_S512x8x512_S512x8x512_0_0_0).toLoadRect
      = cache x1 x2 x3 := by
  rw [View.readCov_eq_canon_ld _ _ _ (planes8_cover x1 x2 x3), View.ld_unit_zero (S := S512x8x512) hz3]
  funext y
  exact View.canon_apply_of_pieces (cache x1 x2 x3) _ (planes8_agree x1 x2 x3) y (planes8_cover x1 x2 x3 y)

end Cert.KernelIdeal.Planes

end
-- ==== Proof.KernelCases.lean ====
/-
  The two control cases of the body, read as values (see KernelCache for the mathematics of the cache).
-/
import proofs.«427034_j73821897883660_2_alg».proof.Proof.KernelCache

set_option maxRecDepth 16384

noncomputable section

open Idealize.ShloMosaic Idealize.ShloMosaic.TcCoe Idealize.SL.Sem Idealize.ShloMosaic.ValueIdx

namespace Cert.KernelIdeal.Planes

open Cert.KernelIdeal Cert.KernelIdeal.Gen

variable {F : FTy → Type} [FloatOps F]

/-- CASE A leaves in the carried scratch the cache of the point's packed block, scale row and zero-point row, cast. -/
theorem scratch_A (c : Dev nD) (i : grid0.Coords) (arg2 : Memref sig .tc .vmem S256x4096 .f32) (harg2 : arg2.IsWhole) (arg3 : Memref sig .tc .vmem S512x512 .i32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S512x8x512 .f32) (harg8 : arg8.IsWhole) (arg9 : Memref sig .tc .vmem S4096x512 .bf16) (harg9 : arg9.IsWhole) (hc0 : cond0_0 i)
    (x0 : Vec F S256x4096 .f32) (x1 : Vec F S512x512 .i32) (x2 : Vec F S1x512 .f32) (x3 : Vec F S1x512 .f32) (x4 : Vec F S1x512 .f32) :
    sout0_A_1 c i arg2 harg2 arg3 harg3 arg4 harg4 arg5 harg5 arg6 harg6 arg7 harg7 arg8 harg8 arg9 harg9 hc0 x0 x1 x2 x3 x4 = k0_pay3 (cache x1 x2 x3) := by
  unfold sout0_A_1
  rw [View.read_writes_eq_canon _ _ _ (scover0_A_1 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz2]
  simp only [View.readAt_eq_ld, harg2.read_unread, harg3.read_unread, harg4.read_unread, harg5.read_unread, harg6.read_unread, View.ld_unit_zero (S := S512x512) hz2, View.ld_unit_zero (S := S1x512) hz2, View.ld_unit_zero (S := S256x4096) hz2, pay7_eq, pay8_eq, pay10_eq, pay11_eq, pay12_eq, pay13_eq, pay1_eq, pay2_eq, pay5_eq, pay6_eq]
  exact congrArg k0_pay3 (readback arg8.view x1 x2 x3)

/-- CASE A leaves in the output block the product of the activation block with that scratch, plus the bias row. -/
theorem out_A (c : Dev nD) (i : grid0.Coords) (arg2 : Memref sig .tc .vmem S256x4096 .f32) (harg2 : arg2.IsWhole) (arg3 : Memref sig .tc .vmem S512x512 .i32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S512x8x512 .f32) (harg8 : arg8.IsWhole) (arg9 : Memref sig .tc .vmem S4096x512 .bf16) (harg9 : arg9.IsWhole) (hc0 : cond0_0 i)
    (x0 : Vec F S256x4096 .f32) (x1 : Vec F S512x512 .i32) (x2 : Vec F S1x512 .f32) (x3 : Vec F S1x512 .f32) (x4 : Vec F S1x512 .f32) :
    out0_A_5 c i arg2 harg2 arg3 harg3 arg4 harg4 arg5 harg5 arg6 harg6 arg7 harg7 arg8 harg8 arg9 harg9 hc0 x0 x1 x2 x3 x4 = k0_pay4 x0 (k0_pay3 (cache x1 x2 x3)) x4 := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz2, View.readCov_unit_zero (S := S4096x512) _ hz2]
  simp only [View.readAt_eq_ld, harg2.read_unread, harg3.read_unread, harg4.read_unread, harg5.read_unread, harg6.read_unread, View.ld_unit_zero (S := S512x512) hz2, View.ld_unit_zero (S := S1x512) hz2, View.ld_unit_zero (S := S256x4096) hz2, pay7_eq, pay8_eq, pay10_eq, pay11_eq, pay12_eq, pay13_eq, pay1_eq, pay2_eq, pay5_eq, pay6_eq]
  exact congrArg (fun w => k0_pay4 x0 (k0_pay3 w) x4) (readback arg8.view x1 x2 x3)

/-- CASE B leaves in the output block the product of the activation block with the scratch as found, plus the bias row. -/
theorem out_B (c : Dev nD) (i : grid0.Coords) (arg2 : Memref sig .tc .vmem S256x4096 .f32) (harg2 : arg2.IsWhole) (arg3 : Memref sig .tc .vmem S512x512 .i32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S512x8x512 .f32) (harg8 : arg8.IsWhole) (arg9 : Memref sig .tc .vmem S4096x512 .bf16) (harg9 : arg9.IsWhole) (hc0 : ¬cond0_0 i)
    (x0 : Vec F S256x4096 .f32) (x1 : Vec F S512x512 .i32) (x2 : Vec F S1x512 .f32) (x3 : Vec F S1x512 .f32) (x4 : Vec F S1x512 .f32) (xs1 : Vec F S4096x512 .bf16) :
    out0_B_5 c i arg2 harg2 arg3 harg3 arg4 harg4 arg5 harg5 arg6 harg6 arg7 harg7 arg8 harg8 arg9 harg9 hc0 x0 x1 x2 x3 x4 xs1 = k0_pay4 x0 xs1 x4 := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 x4 xs1)]
  unfold kernelRun0_B
  dsimp only
  sl_unfold_words
  rw [View.canon_unit_zero hz2]
  simp only [View.readAt_eq_ld, harg2.read_unread, harg6.read_unread, harg9.read_unread, View.ld_unit_zero (S := S256x4096) hz2, View.ld_unit_zero (S := S1x512) hz2, View.ld_unit_zero (S := S4096x512) hz2]

end Cert.KernelIdeal.Planes

end
-- ==== Proof.Spec.lean ====
/-
  The mathematics both programs compute, stated once over the argument arrays and independent of either program.

  A packed word holds eight 4-bit values; value `k` of a word is the word shifted right (arithmetically) by `4k`
  bits and masked with 15. Input row `i` of the weight matrix is value `i % 8` of packed row `i / 8`. The
  dequantised weight is `(q - zero[o]) * scale[o]` per output channel `o`, the integer read as a real; and the
  result is the matrix product of the activations with that weight, plus the bias:
    `out[b, s, o] = (∑ i, x[b, s, i] * W[i, o]) + bias[o]`.
-/
import Idealize.ShloMosaic.PureOps.Ideal
import Idealize.ShloMosaic.PureOps.Ideal.Laws
import Idealize.ShloMosaic.Lib.ValueIdx

noncomputable section

namespace Cert.Dequant

open Idealize.ShloMosaic Idealize.ShloMosaic.ValueIdx

/-- The activations' shape [4, 4096, 4096], the packed weight's [512, 4096], a per-channel vector's [4096]. -/
abbrev SX : Shape := ⟨3, ![4, 4096, 4096]⟩
abbrev SQ : Shape := ⟨2, ![512, 4096]⟩
abbrev SC : Shape := ⟨1, ![4096]⟩

/-- Value `k` of a packed word: the word shifted right arithmetically by `4k` bits, masked with 15. -/
def nibble (q : BitVec 32) (k : Nat) : BitVec 32 := (q.sshiftRight' (BitVec.ofNat 32 (4 * k))) &&& 15#32

/-- For a shift amount below the width every unit's arithmetic right shift is the plain one, so the printed
    `andi (shrsi q (4k)) 15` is value `k` of `q`, on the vector unit and on the host alike. -/
theorem andi_shrsi_eq_nibble (u : ArithUnit) (q : BitVec 32) (k : Nat) (hk : k < 8) :
    IntOp.andi (IntOp.shrsi u q (BitVec.ofNat 32 (4 * k))) 15#32 = nibble q k := by
  unfold IntOp.andi IntOp.shrsi nibble
  rw [if_pos]
  rw [BitVec.toNat_ofNat]
  have : 4 * k % 2 ^ 32 = 4 * k := Nat.mod_eq_of_lt (by omega)
  omega

/-- The packed row and the position inside the word of input row `i`. -/
abbrev packedRow (i : Fin 4096) : Fin 512 := ⟨i.val / 8, by have := i.isLt; omega⟩

/-- The dequantised weight at input row `i` and output channel `o`, over the extended reals. -/
def weight (q : SQ.Idx → BitVec 32) (sc zr : SC.Idx → EReal) (i o : Fin 4096) : EReal :=
  (FloatOps.sitofp (F := Ideal) .f32 (nibble (q (ix2 (packedRow i) o)) (i.val % 8)) - zr (ix1 o)) * sc (ix1 o)

/-- The result array: activations times dequantised weight, plus bias. -/
def linear (x : SX.Idx → EReal) (q : SQ.Idx → BitVec 32) (sc zr b : SC.Idx → EReal) : SX.Idx → EReal :=
  fun j => (∑ k : Fin 4096, x (ix3 (j 0) (j 1) k) * weight q sc zr k (j 2)) + b (ix1 (j 2))

end Cert.Dequant

end
-- ==== Proof.KernelValue.lean ====
/-
  The body's two payloads read at an index, at the ideal instance.

  The carried scratch of column tile `n` is the dequantised weight restricted to the tile's 512 output channels
  (`wtile`): the cache's row `r` is value `r % 8` of packed row `r / 8` (the [512, 8, 512] scratch reshaped to
  [4096, 512] lays the eight planes of a packed row out as eight consecutive rows), and over the extended reals the
  bf16 cast is the identity. The output block is the plain sum `∑ k, x[r, k] * w[k, o] + bias[o]`: a matrix
  product into a zero accumulator is the sum of the products.
-/
import proofs.«427034_j73821897883660_2_alg».proof.Proof.KernelCases
import proofs.«427034_j73821897883660_2_alg».proof.Proof.Spec
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.Linear

open Cert.KernelIdeal Cert.KernelIdeal.Gen Cert.KernelIdeal.Planes Cert.Dequant

/-- Output channel `o` of column tile `n`. -/
abbrev col (n : Fin 8) (o : Fin 512) : Fin 4096 := ⟨512 * n.val + o.val, by have := n.isLt; have := o.isLt; omega⟩

/-- The dequantised weight restricted to column tile `n`. -/
def wtile (q : SQ.Idx → BitVec 32) (sc zr : SC.Idx → EReal) (n : Fin 8) : Vec Ideal S4096x512 .bf16 :=
  fun j => weight q sc zr (j 0) (col n (j 1))

/-- The cast cache of a packed block, a scale row and a zero-point row that are column tile `n`'s is `wtile n`. -/
theorem pay3_cache (X1 : Vec Ideal S512x512 .i32) (X2 X3 : Vec Ideal S1x512 .f32)
    (q : SQ.Idx → BitVec 32) (sc zr : SC.Idx → EReal) (n : Fin 8)
    (h1 : ∀ (a : Fin 512) (o : Fin 512), X1 (ix2 a o) = q (ix2 a (col n o)))
    (h2 : ∀ o : Fin 512, X2 (ix2 (0 : Fin 1) o) = sc (ix1 (col n o)))
    (h3 : ∀ o : Fin 512, X3 (ix2 (0 : Fin 1) o) = zr (ix1 (col n o))) :
    k0_pay3 (cache X1 X2 X3) = wtile q sc zr n := by
  funext j
  obtain ⟨r, o, rfl⟩ : ∃ (r : Fin 4096) (o : Fin 512), j = ix2 r o := ⟨j 0, j 1, eq_ix2 j⟩
  unfold k0_pay3
  rw [shapeCast_self]
  show shapeCast S4096x512 (cache X1 X2 X3) Facts₀.shapeCasts_S512x8x512_S4096x512 (ix2 r o) = _
  refine (shapeCast_apply _ _ (ix2 r o)
    (ix3 (⟨r.val / 8, by have := r.isLt; omega⟩ : Fin 512) (⟨r.val % 8, Nat.mod_lt _ (by decide)⟩ : Fin 8) o) ?_).trans ?_
  · rw [Shape.rowMajor_val_three, Shape.rowMajor_val_two]
    show (r.val / 8 * 8 + r.val % 8) * 512 + o.val = r.val * 512 + o.val
    omega
  · unfold cache wtile weight dq
    show (FloatOps.sitofp (F := Ideal) .f32 (IntOp.andi (IntOp.shrsi .vector (X1 (ix2 (⟨r.val / 8, _⟩ : Fin 512) o)) (BitVec.ofNat 32 (4 * (r.val % 8)))) 15#32)
        - X3 (ix2 (0 : Fin 1) o)) * X2 (ix2 (0 : Fin 1) o) = _
    rw [h1, h2, h3, andi_shrsi_eq_nibble _ _ _ (Nat.mod_lt _ (by decide))]

/-! The four coordinates of the matrix product's operand indices. -/

theorem lhs_0 (i : S256x512.Idx) (q : dot_S256x4096_S4096x512_S256x512_1_0_0_1_n_n.contr.Idx) :
    (dot_S256x4096_S4096x512_S256x512_1_0_0_1_n_n.lhsIdx i q 0).val = (i 0).val := by
  unfold DotDims.lhsIdx
  rw [dif_neg (show ¬(0 : Fin S256x4096.rank) ∈ dot_S256x4096_S4096x512_S256x512_1_0_0_1_n_n.lhsBatch by decide), dif_pos (show (0 : Fin S256x4096.rank) ∈ dot_S256x4096_S4096x512_S256x512_1_0_0_1_n_n.lhsNonContracting by decide)]
  rfl
theorem lhs_1 (i : S256x512.Idx) (q : dot_S256x4096_S4096x512_S256x512_1_0_0_1_n_n.contr.Idx) :
    (dot_S256x4096_S4096x512_S256x512_1_0_0_1_n_n.lhsIdx i q 1).val = (q ⟨0, by decide⟩).val :=
  dot_S256x4096_S4096x512_S256x512_1_0_0_1_n_n.lhsIdx_val_of_single rfl i q
theorem rhs_0 (i : S256x512.Idx) (q : dot_S256x4096_S4096x512_S256x512_1_0_0_1_n_n.contr.Idx) :
    (dot_S256x4096_S4096x512_S256x512_1_0_0_1_n_n.rhsIdx i q 0).val = (q ⟨0, by decide⟩).val :=
  dot_S256x4096_S4096x512_S256x512_1_0_0_1_n_n.rhsIdx_val_of_single rfl i q
theorem rhs_1 (i : S256x512.Idx) (q : dot_S256x4096_S4096x512_S256x512_1_0_0_1_n_n.contr.Idx) :
    (dot_S256x4096_S4096x512_S256x512_1_0_0_1_n_n.rhsIdx i q 1).val = (i 1).val := by
  unfold DotDims.rhsIdx
  rw [dif_neg (show ¬(1 : Fin S4096x512.rank) ∈ dot_S256x4096_S4096x512_S256x512_1_0_0_1_n_n.rhsBatch by decide), dif_pos (show (1 : Fin S4096x512.rank) ∈ dot_S256x4096_S4096x512_S256x512_1_0_0_1_n_n.rhsNonContracting by decide)]
  rfl

/-- The output payload at `(r, o)`: the sum over `k` of activation `(r, k)` times scratch `(k, o)`, plus bias `(0, o)`. -/
theorem pay4_apply (X0 : Vec Ideal S256x4096 .f32) (W : Vec Ideal S4096x512 .bf16) (X4 : Vec Ideal S1x512 .f32)
    (r : Fin 256) (o : Fin 512) :
    k0_pay4 X0 W X4 (ix2 r o) = (∑ k : Fin 4096, X0 (ix2 r k) * W (ix2 k o)) + X4 (ix2 (0 : Fin 1) o) := by
  unfold k0_pay4
  rw [shapeCast_self, shapeCast_self]
  show FloatOps.matmul (F := Ideal) dot_S256x4096_S4096x512_S256x512_1_0_0_1_n_n none (truncf (F := Ideal) .bf16 X0 Facts₀.bitsLt_bf16_f32) W (constant (F := Ideal) S256x512 .f32 0x00000000#32) (ix2 r o)
      + broadcastTo S256x512 X4 Facts₀.broadcasts_S1x512_S256x512 (ix2 r o) = _
  congr 1
  · rw [Ideal.matmul_constant_zero_apply, ← Equiv.sum_comp (contrEquiv1 dot_S256x4096_S4096x512_S256x512_1_0_0_1_n_n 4096 rfl rfl).symm]
    refine Finset.sum_congr rfl fun k _ => ?_
    have hk := contrEquiv1_symm_val dot_S256x4096_S4096x512_S256x512_1_0_0_1_n_n 4096 rfl rfl k
    have el : dot_S256x4096_S4096x512_S256x512_1_0_0_1_n_n.lhsIdx (ix2 r o) ((contrEquiv1 dot_S256x4096_S4096x512_S256x512_1_0_0_1_n_n 4096 rfl rfl).symm k) = ix2 r k := funext fun a => Fin.ext (by
      match a with
      | ⟨0, _⟩ => exact lhs_0 _ _
      | ⟨1, _⟩ => exact (lhs_1 _ _).trans hk)
    have er : dot_S256x4096_S4096x512_S256x512_1_0_0_1_n_n.rhsIdx (ix2 r o) ((contrEquiv1 dot_S256x4096_S4096x512_S256x512_1_0_0_1_n_n 4096 rfl rfl).symm k) = ix2 k o := funext fun a => Fin.ext (by
      match a with
      | ⟨0, _⟩ => exact (rhs_0 _ _).trans hk
      | ⟨1, _⟩ => exact rhs_1 _ _)
    rw [el, er]
    rfl
  · exact broadcastTo_apply X4 _ _ _ (fun a => by
      match a with
      | ⟨0, _⟩ => show (0 : Nat) = if (1 : Nat) = 1 then 0 else _; rw [if_pos rfl]
      | ⟨1, _⟩ => show o.val = if (512 : Nat) = 1 then 0 else o.val; rw [if_neg (by decide)])

end Cert.KernelIdeal.Linear

end
-- ==== Proof.KernelBlocks.lean ====
/-
  The blocks the pipeline hands the body at grid point `t`, read off the argument arrays.

  The grid is (8 column tiles) × (64 row blocks), row blocks innermost: point `t` is column tile `t / 64`, row block
  `t % 64`. The packed block, the scale row, the zero-point row and the bias row are column tile `t / 64`'s
  512 channels; the activation block is rows `256 (t % 64) …` of the activations laid out as [16384, 4096], row
  `R` of which is `(R / 4096, R % 4096)` of the [4, 4096, 4096] argument.
-/
import proofs.«427034_j73821897883660_2_alg».proof.Proof.KernelValue
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Linear

open Cert.KernelIdeal Cert.KernelIdeal.Gen Cert.KernelIdeal.Planes Cert.Dequant

variable (m : (ℓ : Loc nD τ sig) → Buf (Elt Ideal) ℓ) (ρ : Dev nD → PrngReg)

/-- The five argument arrays as launched, at their literal types. -/
abbrev xarr (c : Dev nD) : SX.Idx → EReal := m ((c : Thread nD τ).loc main_arg0)
abbrev qarr (c : Dev nD) : SQ.Idx → BitVec 32 := m ((c : Thread nD τ).loc main_arg1)
abbrev scarr (c : Dev nD) : SC.Idx → EReal := m ((c : Thread nD τ).loc main_arg2)
abbrev zrarr (c : Dev nD) : SC.Idx → EReal := m ((c : Thread nD τ).loc main_arg3)
abbrev barr (c : Dev nD) : SC.Idx → EReal := m ((c : Thread nD τ).loc main_arg4)

/-- The five input blocks at point `t`, at their literal types. -/
abbrev xblk (c : Dev nD) (t : Fin cfg0.N) : Vec Ideal S256x4096 .f32 := iblk m c 0 t
abbrev qblk (c : Dev nD) (t : Fin cfg0.N) : Vec Ideal S512x512 .i32 := iblk m c 1 t
abbrev scblk (c : Dev nD) (t : Fin cfg0.N) : Vec Ideal S1x512 .f32 := iblk m c 2 t
abbrev zrblk (c : Dev nD) (t : Fin cfg0.N) : Vec Ideal S1x512 .f32 := iblk m c 3 t
abbrev bblk (c : Dev nD) (t : Fin cfg0.N) : Vec Ideal S1x512 .f32 := iblk m c 4 t

/-- The printed index maps over the grid: row block `t % 64`, column tile `t / 64`. -/
theorem idx_facts : ∀ t : Fin cfg0.N,
    win0_0.index t (0 : Fin 2) = t.val % 64 ∧ win0_0.index t (1 : Fin 2) = 0
    ∧ win0_1.index t (0 : Fin 2) = 0 ∧ win0_1.index t (1 : Fin 2) = t.val / 64
    ∧ win0_2.index t (0 : Fin 2) = 0 ∧ win0_2.index t (1 : Fin 2) = t.val / 64
    ∧ win0_3.index t (0 : Fin 2) = 0 ∧ win0_3.index t (1 : Fin 2) = t.val / 64
    ∧ win0_4.index t (0 : Fin 2) = 0 ∧ win0_4.index t (1 : Fin 2) = t.val / 64
    ∧ win0_5.index t (0 : Fin 2) = t.val % 64 ∧ win0_5.index t (1 : Fin 2) = t.val / 64 :=
  (by decide +kernel : ∀ t : Fin grid0.N, _)

/-- The column tile of point `t`. -/
abbrev tile (t : Fin cfg0.N) : Fin 8 := ⟨t.val / 64, by have := lt_of_lt_of_eq t.isLt (show cfg0.N = 512 from N_0); omega⟩

/-- The host reshapes before the region, read at an index. -/
theorem V_v0 (c : Dev nD) : (V m c main_v0 : S16384x4096.Idx → EReal)
    = shapeCast S16384x4096 (xarr m c) Facts₀.shapeCasts_S4x4096x4096_S16384x4096 := by
  show StableHlo.after hostOps0 (fun b => m (c, b)) (Proc.devRef .tc main_v0) = _
  after_results
  rfl
theorem V_v1 (c : Dev nD) : (V m c main_v1 : S1x4096.Idx → EReal)
    = shapeCast S1x4096 (scarr m c) Facts₀.shapeCasts_S4096_S1x4096 := by
  show StableHlo.after hostOps0 (fun b => m (c, b)) (Proc.devRef .tc main_v1) = _
  after_results
  rfl
theorem V_v2 (c : Dev nD) : (V m c main_v2 : S1x4096.Idx → EReal)
    = shapeCast S1x4096 (zrarr m c) Facts₀.shapeCasts_S4096_S1x4096 := by
  show StableHlo.after hostOps0 (fun b => m (c, b)) (Proc.devRef .tc main_v2) = _
  after_results
  rfl
theorem V_v3 (c : Dev nD) : (V m c main_v3 : S1x4096.Idx → EReal)
    = shapeCast S1x4096 (barr m c) Facts₀.shapeCasts_S4096_S1x4096 := by
  show StableHlo.after hostOps0 (fun b => m (c, b)) (Proc.devRef .tc main_v3) = _
  after_results
  rfl

/-- A [4096] vector reshaped to [1, 4096], at `(0, o)`. -/
theorem row_apply {α : Type} (v : S4096.Idx → α) (o : Fin 4096) :
    shapeCast S1x4096 v Facts₀.shapeCasts_S4096_S1x4096 (ix2 (0 : Fin 1) o) = v (ix1 o) :=
  shapeCast_apply v _ (ix2 (0 : Fin 1) o) (ix1 o) (by
    rw [Shape.rowMajor_val_one, Shape.rowMajor_val_two]
    show o.val = 0 * 4096 + o.val
    omega)

/-- The [4, 4096, 4096] activations reshaped to [16384, 4096], at `(R, k)`. -/
theorem rows_apply {α : Type} (v : S4x4096x4096.Idx → α) (R : Fin 16384) (k : Fin 4096) :
    shapeCast S16384x4096 v Facts₀.shapeCasts_S4x4096x4096_S16384x4096 (ix2 R k)
      = v (ix3 (⟨R.val / 4096, by have := R.isLt; omega⟩ : Fin 4) (⟨R.val % 4096, Nat.mod_lt _ (by decide)⟩ : Fin 4096) k) :=
  shapeCast_apply v _ (ix2 R k) _ (by
    rw [Shape.rowMajor_val_three, Shape.rowMajor_val_two]
    show (R.val / 4096 * 4096 + R.val % 4096) * 4096 + k.val = R.val * 4096 + k.val
    omega)

/-- The packed block at point `t` is column tile `t / 64` of the packed weight. -/
theorem qblk_apply (c : Dev nD) (t : Fin cfg0.N) (a o : Fin 512) :
    qblk m c t (ix2 a o) = qarr m c (ix2 a (col (tile t) o)) := by
  obtain ⟨-, -, e0, e1, -⟩ := idx_facts t
  unfold qblk iblk
  rw [View.read_apply]
  show V m c main_arg1 (((cfg0.win 1).blk t).view.emb (ix2 a o)) = _
  rw [V_main_arg1]
  show m ((c : Thread nD τ).loc main_arg1) _ = m ((c : Thread nD τ).loc main_arg1) _
  congr 1
  funext ax
  apply Fin.ext
  match ax with
  | ⟨0, _⟩ => show win0_1.index t (0 : Fin 2) * 512 + 1 * a.val = a.val; rw [e0]; omega
  | ⟨1, _⟩ => show win0_1.index t (1 : Fin 2) * 512 + 1 * o.val = 512 * (t.val / 64) + o.val; rw [e1]; omega

/-- The scale row at point `t`. -/
theorem scblk_apply (c : Dev nD) (t : Fin cfg0.N) (o : Fin 512) :
    scblk m c t (ix2 (0 : Fin 1) o) = scarr m c (ix1 (col (tile t) o)) := by
  obtain ⟨-, -, -, -, e0, e1, -⟩ := idx_facts t
  unfold scblk iblk
  rw [View.read_apply]
  show V m c main_v1 (((cfg0.win 2).blk t).view.emb (ix2 (0 : Fin 1) o)) = _
  rw [V_v1, ← row_apply (scarr m c) (col (tile t) o)]
  congr 1
  funext ax
  apply Fin.ext
  match ax with
  | ⟨0, _⟩ => show win0_2.index t (0 : Fin 2) * 1 + 1 * 0 = 0; rw [e0]
  | ⟨1, _⟩ => show win0_2.index t (1 : Fin 2) * 512 + 1 * o.val = 512 * (t.val / 64) + o.val; rw [e1]; omega

/-- The zero-point row at point `t`. -/
theorem zrblk_apply (c : Dev nD) (t : Fin cfg0.N) (o : Fin 512) :
    zrblk m c t (ix2 (0 : Fin 1) o) = zrarr m c (ix1 (col (tile t) o)) := by
  obtain ⟨-, -, -, -, -, -, e0, e1, -⟩ := idx_facts t
  unfold zrblk iblk
  rw [View.read_apply]
  show V m c main_v2 (((cfg0.win 3).blk t).view.emb (ix2 (0 : Fin 1) o)) = _
  rw [V_v2, ← row_apply (zrarr m c) (col (tile t) o)]
  congr 1
  funext ax
  apply Fin.ext
  match ax with
  | ⟨0, _⟩ => show win0_3.index t (0 : Fin 2) * 1 + 1 * 0 = 0; rw [e0]
  | ⟨1, _⟩ => show win0_3.index t (1 : Fin 2) * 512 + 1 * o.val = 512 * (t.val / 64) + o.val; rw [e1]; omega

/-- The bias row at point `t`. -/
theorem bblk_apply (c : Dev nD) (t : Fin cfg0.N) (o : Fin 512) :
    bblk m c t (ix2 (0 : Fin 1) o) = barr m c (ix1 (col (tile t) o)) := by
  obtain ⟨-, -, -, -, -, -, -, -, e0, e1, -⟩ := idx_facts t
  unfold bblk iblk
  rw [View.read_apply]
  show V m c main_v3 (((cfg0.win 4).blk t).view.emb (ix2 (0 : Fin 1) o)) = _
  rw [V_v3, ← row_apply (barr m c) (col (tile t) o)]
  congr 1
  funext ax
  apply Fin.ext
  match ax with
  | ⟨0, _⟩ => show win0_4.index t (0 : Fin 2) * 1 + 1 * 0 = 0; rw [e0]
  | ⟨1, _⟩ => show win0_4.index t (1 : Fin 2) * 512 + 1 * o.val = 512 * (t.val / 64) + o.val; rw [e1]; omega

/-- Row `r` of row block `t % 64`, as a row of the [16384, 4096] layout. -/
abbrev grow (t : Fin cfg0.N) (r : Fin 256) : Fin 16384 :=
  ⟨256 * (t.val % 64) + r.val, by have := r.isLt; omega⟩

/-- The activation block at point `t`. -/
theorem xblk_apply (c : Dev nD) (t : Fin cfg0.N) (r : Fin 256) (k : Fin 4096) :
    xblk m c t (ix2 r k)
      = xarr m c (ix3 (⟨(grow t r).val / 4096, by have := (grow t r).isLt; omega⟩ : Fin 4)
          (⟨(grow t r).val % 4096, Nat.mod_lt _ (by decide)⟩ : Fin 4096) k) := by
  obtain ⟨e0, e1, -⟩ := idx_facts t
  unfold xblk iblk
  rw [View.read_apply]
  show V m c main_v0 (((cfg0.win 0).blk t).view.emb (ix2 r k)) = _
  rw [V_v0, ← rows_apply (xarr m c) (grow t r) k]
  congr 1
  funext ax
  apply Fin.ext
  match ax with
  | ⟨0, _⟩ => show win0_0.index t (0 : Fin 2) * 256 + 1 * r.val = 256 * (t.val % 64) + r.val; rw [e0]; omega
  | ⟨1, _⟩ => show win0_0.index t (1 : Fin 2) * 4096 + 1 * k.val = k.val; rw [e1]; omega

end Cert.KernelIdeal.Linear

end
-- ==== Proof.KernelRun.lean ====
/-
  The kernel's result array.

  By induction on the grid point the carried scratch holds, after point `t`, the dequantised weight of column tile
  `t / 64`: the first row block of a tile computes it from the tile's blocks, every later one leaves it alone, and
  `(t - 1) / 64 = t / 64` unless `t` starts a tile. So every point writes back, as block `(t % 64, t / 64)` of the
  [16384, 4096] result, the block of ONE function of the arguments: activations times weight plus bias. The 512
  blocks tile the array, and the host reshape after the region relabels rows `R` as `(R / 4096, R % 4096)`.
-/
import proofs.«427034_j73821897883660_2_alg».proof.Proof.KernelBlocks

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Linear

open Cert.KernelIdeal Cert.KernelIdeal.Gen Cert.KernelIdeal.Planes Cert.Dequant

variable (m : (ℓ : Loc nD τ sig) → Buf (Elt Ideal) ℓ) (ρ : Dev nD → PrngReg)

/-- The weight of the column tile of point `t`, from the launched arrays. -/
abbrev wAt (c : Dev nD) (t : Fin cfg0.N) : Vec Ideal S4096x512 .bf16 := wtile (qarr m c) (scarr m c) (zrarr m c) (tile t)

/-- The cache a tile's first point builds is the tile's weight. -/
theorem cache_at (c : Dev nD) (t : Fin cfg0.N) :
    k0_pay3 (cache (qblk m c t) (scblk m c t) (zrblk m c t)) = wAt m c t :=
  pay3_cache (qblk m c t) (scblk m c t) (zrblk m c t) (qarr m c) (scarr m c) (zrarr m c) (tile t)
    (fun a o => qblk_apply m c t a o) (fun o => scblk_apply m c t o) (fun o => zrblk_apply m c t o)

/-- THE INVARIANT: after point `n` the carried scratch is the weight of column tile `n / 64`. -/
theorem scratch_eq (c : Dev nD) : ∀ (n : ℕ) (h : n < cfg0.N), (outsAt0 m c n h).2 = wAt m c ⟨n, h⟩
  | 0, h => by
    rw [outsAt0_A m c ⟨0, h⟩ rfl]
    dsimp only
    exact (scratch_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) scM0_1 (Memref.isWhole_whole _) ((hcond0_0 ⟨0, h⟩).mpr rfl) (xblk m c ⟨0, h⟩) (qblk m c ⟨0, h⟩) (scblk m c ⟨0, h⟩) (zrblk m c ⟨0, h⟩) (bblk m c ⟨0, h⟩)).trans (cache_at m c ⟨0, h⟩)
  | n + 1, h => by
    by_cases h0 : (n + 1) % 64 = 0
    · rw [outsAt0_A m c ⟨n + 1, h⟩ h0]
      dsimp only
      exact (scratch_A (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) ((hcond0_0 ⟨n + 1, h⟩).mpr h0) (xblk m c ⟨n + 1, h⟩) (qblk m c ⟨n + 1, h⟩) (scblk m c ⟨n + 1, h⟩) (zrblk m c ⟨n + 1, h⟩) (bblk m c ⟨n + 1, h⟩)).trans (cache_at m c ⟨n + 1, h⟩)
    · rw [outsAt0_B m c ⟨n + 1, h⟩ h0]
      unfold sout0_B_1
      show (outsAt0 m c n (Nat.lt_of_succ_lt h)).2 = _
      rw [scratch_eq c n (Nat.lt_of_succ_lt h)]
      have e : tile ⟨n, Nat.lt_of_succ_lt h⟩ = tile ⟨n + 1, h⟩ := Fin.ext (by show n / 64 = (n + 1) / 64; omega)
      show wtile _ _ _ (tile ⟨n, Nat.lt_of_succ_lt h⟩) = wtile _ _ _ (tile ⟨n + 1, h⟩)
      rw [e]

/-- What point `t` leaves in the output block: the activation block times the tile's weight, plus the bias row. -/
theorem out_eq (c : Dev nD) (t : Fin cfg0.N) :
    (outsAt0 m c t.val t.isLt).1 = k0_pay4 (xblk m c t) (wAt m c t) (bblk m c t) := by
  by_cases h0 : t.val % 64 = 0
  · rw [outsAt0_A m c t h0]
    dsimp only
    refine (out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (xblk m c t) (qblk m c t) (scblk m c t) (zrblk m c t) (bblk m c t)).trans ?_
    exact congrArg (fun w => k0_pay4 (xblk m c t) w (bblk m c t)) (cache_at m c t)
  · rw [outsAt0_B m c t h0]
    dsimp only
    refine (out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (xblk m c t) (qblk m c t) (scblk m c t) (zrblk m c t) (bblk m c t)
      (outsAt0 m c (t.val - 1) (Nat.lt_of_le_of_lt (Nat.sub_le _ _) t.isLt)).2).trans ?_
    rw [scratch_eq m c (t.val - 1) (Nat.lt_of_le_of_lt (Nat.sub_le _ _) t.isLt)]
    have e : tile ⟨t.val - 1, Nat.lt_of_le_of_lt (Nat.sub_le _ _) t.isLt⟩ = tile t :=
      Fin.ext (by show (t.val - 1) / 64 = t.val / 64; omega)
    show k0_pay4 _ (wtile _ _ _ (tile ⟨t.val - 1, _⟩)) _ = k0_pay4 _ (wtile _ _ _ (tile t)) _
    rw [e]

/-- The result in the [16384, 4096] layout the region writes: row `R` is `(R / 4096, R % 4096)` of `linear`. -/
def out2d (c : Dev nD) : S16384x4096.Idx → EReal := fun i =>
  linear (xarr m c) (qarr m c) (scarr m c) (zrarr m c) (barr m c)
    (ix3 (⟨(i 0).val / 4096, by have := (i 0).isLt; show _ < 4; have : (i 0).val < 16384 := (i 0).isLt; omega⟩ : Fin 4)
      (⟨(i 0).val % 4096, Nat.mod_lt _ (by decide)⟩ : Fin 4096) (i 1))

/-- WHAT POINT `t` WRITES BACK is block `t` of `out2d`. -/
theorem flushed_eq (c : Dev nD) (t : Fin cfg0.N) :
    (dats m 0 c).flushed 5 t = ((cfg0.win 5).blk t).view.read (Elt Ideal) (out2d m c) := by
  show (cfg0.win 5).cut (grid0.coords t) ((dats m 0 c).after 5 t) = _
  rw [after0_5, out_eq]
  obtain ⟨-, -, -, -, -, -, -, -, -, -, e0, e1⟩ := idx_facts t
  funext y
  obtain ⟨r, o, rfl⟩ : ∃ (r : Fin 256) (o : Fin 512), y = ix2 r o := ⟨y 0, y 1, eq_ix2 y⟩
  rw [View.read_apply]
  show k0_pay4 (xblk m c t) (wAt m c t) (bblk m c t) (ix2 r o) = out2d m c (((cfg0.win 5).blk t).view.emb (ix2 r o))
  have hemb : ((cfg0.win 5).blk t).view.emb (ix2 r o) = (ix2 (grow t r) (col (tile t) o) : S16384x4096.Idx) := by
    funext ax
    apply Fin.ext
    match ax with
    | ⟨0, _⟩ => show win0_5.index t (0 : Fin 2) * 256 + 1 * r.val = 256 * (t.val % 64) + r.val; rw [e0]; omega
    | ⟨1, _⟩ => show win0_5.index t (1 : Fin 2) * 512 + 1 * o.val = 512 * (t.val / 64) + o.val; rw [e1]; omega
  rw [hemb, pay4_apply, bblk_apply]
  unfold out2d linear
  show _ = (∑ k : Fin 4096, xarr m c (ix3 (⟨(grow t r).val / 4096, _⟩ : Fin 4) (⟨(grow t r).val % 4096, _⟩ : Fin 4096) k)
      * weight (qarr m c) (scarr m c) (zrarr m c) k (col (tile t) o)) + barr m c (ix1 (col (tile t) o))
  congr 1
  refine Finset.sum_congr rfl fun k _ => ?_
  rw [xblk_apply]
  rfl

/-- An index of the array is in point `t`'s block iff each coordinate is in the block's range on its axis. -/
theorem mem_blk (t : Fin cfg0.N) (i : S16384x4096.Idx) :
    i ∈ ((cfg0.win 5).blk t).view.set ↔ ∀ a : Fin 2, win0_5.index t a * S256x512.size a ≤ (i a).val ∧ (i a).val < win0_5.index t a * S256x512.size a + S256x512.size a := by
  show i ∈ ((View.whole main_v4).slice (win0_5.rect t)).set ↔ _
  rw [View.set_slice_whole, Rect.mem_set_unit]
  exact Iff.rfl

/-- The 512 blocks tile the array: `(R, O)` is in the block of point `64 (O / 512) + R / 256`. -/
theorem cover (i : S16384x4096.Idx) :
    ∃ t : Fin cfg0.N, (cfg0.win 5).flush t = true ∧ i ∈ ((cfg0.win 5).blk t).view.set := by
  have hi0 : (i 0).val < 16384 := (i 0).isLt
  have hi1 : (i 1).val < 4096 := (i 1).isLt
  have hN : cfg0.N = 512 := N_0
  let t : Fin cfg0.N := ⟨64 * ((i 1).val / 512) + (i 0).val / 256, by rw [hN]; omega⟩
  obtain ⟨-, -, -, -, -, -, -, -, -, -, e0, e1⟩ := idx_facts t
  have ht : t.val = 64 * ((i 1).val / 512) + (i 0).val / 256 := rfl
  refine ⟨t, flush0_5 t, ?_⟩
  rw [mem_blk]
  intro a
  match a with
  | ⟨0, _⟩ => show win0_5.index t (0 : Fin 2) * 256 ≤ (i 0).val ∧ (i 0).val < win0_5.index t (0 : Fin 2) * 256 + 256; rw [e0, ht]; omega
  | ⟨1, _⟩ => show win0_5.index t (1 : Fin 2) * 512 ≤ (i 1).val ∧ (i 1).val < win0_5.index t (1 : Fin 2) * 512 + 512; rw [e1, ht]; omega

/-- THE ARRAY the region leaves: `out2d`. -/
theorem final (c : Dev nD) : (dats m 0 c).arrAt 5 cfg0.N = out2d m c :=
  (dats m 0 c).arrAt_eq_of_cover 5 (out2d m c) (fun t _ => flushed_eq m c t) cover

/-- The result: `linear` of the launched arrays. -/
abbrev result (c : Dev nD) : SX.Idx → EReal := linear (xarr m c) (qarr m c) (scarr m c) (zrarr m c) (barr m c)

/-- The host reshape after the region relabels `out2d` as `result`. -/
theorem tail_eq (c : Dev nD) :
    (Pipeline.afterTail₀ cfgs (dats m) 0 (V0 m) [hostOps1] c main_v5 : S4x4096x4096.Idx → EReal) = result m c := by
  have hW : (Pipeline.withArrays (cfgs 0).spec c (V0 m c) (fun w => (dats m 0 c).arrAt w (cfgs 0).N) (Proc.devRef .tc main_v4)
      : S16384x4096.Idx → EReal) = out2d m c :=
    (Pipeline.withArrays_arr spec0 launch0.win.arr_inj c _ _ 5).trans (final m c)
  unfold Pipeline.afterTail₀
  show StableHlo.after hostOps1 _ (Proc.devRef .tc main_v5) = _
  after_results
  show shapeCast S4x4096x4096 (Pipeline.withArrays (cfgs 0).spec c (V0 m c) (fun w => (dats m 0 c).arrAt w (cfgs 0).N) (Proc.devRef .tc main_v4))
      Facts₀.shapeCasts_S16384x4096_S4x4096x4096 = _
  rw [hW]
  funext j
  obtain ⟨b, s, o, rfl⟩ : ∃ (b : Fin 4) (s : Fin 4096) (o : Fin 4096), j = ix3 b s o := ⟨j 0, j 1, j 2, eq_ix3 j⟩
  refine (shapeCast_apply (out2d m c) _ (ix3 b s o) (ix2 (⟨b.val * 4096 + s.val, by have := b.isLt; have := s.isLt; omega⟩ : Fin 16384) o) ?_).trans ?_
  · rw [Shape.rowMajor_val_three, Shape.rowMajor_val_two]
    show (b.val * 4096 + s.val) * 4096 + o.val = (b.val * 4096 + s.val) * 4096 + o.val
    rfl
  · unfold out2d
    have hb : b.val < 4 := b.isLt
    have hs : s.val < 4096 := s.isLt
    have e1 : (⟨(b.val * 4096 + s.val) / 4096, by omega⟩ : Fin 4) = b := Fin.ext (by show (b.val * 4096 + s.val) / 4096 = b.val; omega)
    have e2 : (⟨(b.val * 4096 + s.val) % 4096, Nat.mod_lt _ (by decide)⟩ : Fin 4096) = s := Fin.ext (by show (b.val * 4096 + s.val) % 4096 = s.val; omega)
    show linear _ _ _ _ _ (ix3 (⟨(b.val * 4096 + s.val) / 4096, _⟩ : Fin 4) (⟨(b.val * 4096 + s.val) % 4096, _⟩ : Fin 4096) o) = _
    rw [e1, e2]

/-- The run, read: the result buffer at `linear` of the launched arrays, the arguments unchanged. -/
theorem run : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v5 (Pipeline.mem_restRefs_of main_v5 (by decide) (by decide))).trans (tail_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.Linear

end
-- ==== Proof.RefValue.lean ====
/-
  The reference's result is `Dequant.linear` of its arguments.

  The reference stacks the eight masked shifts of the packed weight along a new middle axis and reshapes
  [512, 8, 4096] to [4096, 4096]: row `i` of the result is value `i % 8` of packed row `i / 8`. It then converts to
  float, subtracts the zero points, multiplies by the scales, contracts the activations' last axis against the
  rows, and adds the bias.
-/
import proofs.«427034_j73821897883660_2_alg».proof.Proof.Gen.ReferenceIdeal.Read
import proofs.«427034_j73821897883660_2_alg».proof.Proof.Spec

set_option maxRecDepth 16384

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.Dequant

/-- The eight pieces of the stack, first to last. -/
abbrev pieces (x1 : SQ.Idx → BitVec 32) : List ((s : Shape) × (s.Idx → BitVec 32)) :=
  [⟨S512x1x4096, val_main_v32 (F := Ideal) x1⟩, ⟨S512x1x4096, val_main_v33 (F := Ideal) x1⟩,
   ⟨S512x1x4096, val_main_v34 (F := Ideal) x1⟩, ⟨S512x1x4096, val_main_v35 (F := Ideal) x1⟩,
   ⟨S512x1x4096, val_main_v36 (F := Ideal) x1⟩, ⟨S512x1x4096, val_main_v37 (F := Ideal) x1⟩,
   ⟨S512x1x4096, val_main_v38 (F := Ideal) x1⟩, ⟨S512x1x4096, val_main_v39 (F := Ideal) x1⟩]

/-- The stack reshaped, at row `i` with `i % 8 = k`: piece `k` at `(i / 8, 0, o)`. -/
theorem stack_at (x1 : SQ.Idx → BitVec 32) (i o : Fin 4096) (k : Nat) (hk8 : k < 8) (hk : i.val % 8 = k)
    (p : S512x1x4096.Idx → BitVec 32) (hp : (pieces x1)[k]'(by show k < 8; exact hk8) = ⟨S512x1x4096, p⟩) :
    val_main_v41 (F := Ideal) x1 (ix2 i o) = p (ix3 (packedRow i) (0 : Fin 1) o) := by
  rw [val_main_v41_apply]
  unfold val_main_v40
  have hi : i.val < 4096 := i.isLt
  have ho : o.val < 4096 := o.isLt
  refine concatenate_apply_piece (1 : Fin 3) (pieces x1) _ (idx_main_v41 (ix2 i o)) k (by show k < 8; exact hk8)
    S512x1x4096 p hp rfl k ?_ (ix3 (packedRow i) (0 : Fin 1) o) ?_ ?_
  · interval_cases k <;> rfl
  · intro b hb
    match b with
    | ⟨0, _⟩ => show i.val / 8 = (i.val * 4096 + o.val) / 32768; omega
    | ⟨1, _⟩ => exact absurd rfl hb
    | ⟨2, _⟩ => show o.val = (i.val * 4096 + o.val) % 4096; omega
  · show k + 0 = (i.val * 4096 + o.val) / 4096 % 8
    omega

/-- A piece at `(a, 0, o)`: the masked shift of packed word `(a, o)`. -/
theorem idx_piece (a : Fin 512) (o : Fin 4096) : idx_main_v32 (ix3 a (0 : Fin 1) o) = ix2 a o :=
  funext fun d => Fin.ext (by match d with | ⟨0, _⟩ => rfl | ⟨1, _⟩ => rfl)

/-- The masked shift by `4k` of packed word `(a, o)` is its value `k`. -/
theorem masked_shift (x1 : SQ.Idx → BitVec 32) (a : Fin 512) (o : Fin 4096) (k : Nat) (hk : k < 8) (sh : BitVec 32)
    (hsh : sh = BitVec.ofNat 32 (4 * k)) :
    IntOp.andi (IntOp.shrsi .host (x1 (idx_main_v32 (ix3 a (0 : Fin 1) o))) sh) 15#32 = nibble (x1 (ix2 a o)) k := by
  subst hsh
  rw [idx_piece]
  exact andi_shrsi_eq_nibble .host _ k hk

/-- Row `i` of the unpacked integer matrix is value `i % 8` of packed row `i / 8`. -/
theorem unpacked_apply (x1 : SQ.Idx → BitVec 32) (i o : Fin 4096) :
    val_main_v41 (F := Ideal) x1 (ix2 i o) = nibble (x1 (ix2 (packedRow i) o)) (i.val % 8) := by
  have h8 : i.val % 8 < 8 := Nat.mod_lt _ (by decide)
  rcases (show i.val % 8 = 0 ∨ i.val % 8 = 1 ∨ i.val % 8 = 2 ∨ i.val % 8 = 3 ∨ i.val % 8 = 4 ∨ i.val % 8 = 5
      ∨ i.val % 8 = 6 ∨ i.val % 8 = 7 by omega) with h | h | h | h | h | h | h | h
  · rw [stack_at x1 i o 0 (by decide) h _ rfl, h, val_main_v32_apply, val_main_v3_apply, val_main_v1_apply, val_main_v0_apply,
      val_main_c_apply, val_main_v2_apply, val_main_c_0_apply]
    exact masked_shift x1 _ o 0 (by decide) _ rfl
  · rw [stack_at x1 i o 1 (by decide) h _ rfl, h, val_main_v33_apply, val_main_v7_apply, val_main_v5_apply, val_main_v4_apply,
      val_main_c_1_apply, val_main_v6_apply, val_main_c_2_apply]
    exact masked_shift x1 _ o 1 (by decide) _ rfl
  · rw [stack_at x1 i o 2 (by decide) h _ rfl, h, val_main_v34_apply, val_main_v11_apply, val_main_v9_apply, val_main_v8_apply,
      val_main_c_3_apply, val_main_v10_apply, val_main_c_4_apply]
    exact masked_shift x1 _ o 2 (by decide) _ rfl
  · rw [stack_at x1 i o 3 (by decide) h _ rfl, h, val_main_v35_apply, val_main_v15_apply, val_main_v13_apply, val_main_v12_apply,
      val_main_c_5_apply, val_main_v14_apply, val_main_c_6_apply]
    exact masked_shift x1 _ o 3 (by decide) _ rfl
  · rw [stack_at x1 i o 4 (by decide) h _ rfl, h, val_main_v36_apply, val_main_v19_apply, val_main_v17_apply, val_main_v16_apply,
      val_main_c_7_apply, val_main_v18_apply, val_main_c_8_apply]
    exact masked_shift x1 _ o 4 (by decide) _ rfl
  · rw [stack_at x1 i o 5 (by decide) h _ rfl, h, val_main_v37_apply, val_main_v23_apply, val_main_v21_apply, val_main_v20_apply,
      val_main_c_9_apply, val_main_v22_apply, val_main_c_10_apply]
    exact masked_shift x1 _ o 5 (by decide) _ rfl
  · rw [stack_at x1 i o 6 (by decide) h _ rfl, h, val_main_v38_apply, val_main_v27_apply, val_main_v25_apply, val_main_v24_apply,
      val_main_c_11_apply, val_main_v26_apply, val_main_c_12_apply]
    exact masked_shift x1 _ o 6 (by decide) _ rfl
  · rw [stack_at x1 i o 7 (by decide) h _ rfl, h, val_main_v39_apply, val_main_v31_apply, val_main_v29_apply, val_main_v28_apply,
      val_main_c_13_apply, val_main_v30_apply, val_main_c_14_apply]
    exact masked_shift x1 _ o 7 (by decide) _ rfl

/-- The reference's dequantised weight at `(i, o)`. -/
theorem weight_apply (x1 : SQ.Idx → BitVec 32) (x2 x3 : SC.Idx → EReal) (i o : Fin 4096) :
    val_main_v48 (F := Ideal) x1 x2 x3 (ix2 i o) = weight x1 x2 x3 i o := by
  rw [val_main_v48_apply, val_main_v45_apply, val_main_v42_apply, unpacked_apply, val_main_v44_apply, val_main_v43_apply,
    val_main_v47_apply, val_main_v46_apply]
  have e : idx_main_v43 (idx_main_v44 (ix2 i o)) = ix1 o := funext fun d => Fin.ext (by match d with | ⟨0, _⟩ => rfl)
  have e' : idx_main_v46 (idx_main_v47 (ix2 i o)) = ix1 o := funext fun d => Fin.ext (by match d with | ⟨0, _⟩ => rfl)
  rw [e, e']
  rfl

/-- The reference's result is `linear` of its arguments. -/
theorem result_eq (x0 : SX.Idx → EReal) (x1 : SQ.Idx → BitVec 32) (x2 x3 x4 : SC.Idx → EReal) :
    val_main_v52 (F := Ideal) x0 x1 x2 x3 x4 = linear x0 x1 x2 x3 x4 := by
  funext j
  obtain ⟨b, s, o, rfl⟩ : ∃ (b : Fin 4) (s : Fin 4096) (o : Fin 4096), j = ix3 b s o := ⟨j 0, j 1, j 2, eq_ix3 j⟩
  rw [val_main_v52_apply, val_main_v49_apply, val_main_v51_apply, val_main_v50_apply]
  unfold linear
  show (∑ k : Fin 4096, x0 (lidx_main_v49 (ix3 b s o) k) * val_main_v48 (F := Ideal) x1 x2 x3 (ridx_main_v49 (ix3 b s o) k))
      + x4 (idx_main_v50 (idx_main_v51 (ix3 b s o))) = (∑ k : Fin 4096, x0 (ix3 b s k) * weight x1 x2 x3 k o) + x4 (ix1 o)
  have eb : idx_main_v50 (idx_main_v51 (ix3 b s o)) = ix1 o := funext fun d => Fin.ext (by match d with | ⟨0, _⟩ => rfl)
  rw [eb]
  congr 1
  refine Finset.sum_congr rfl fun k _ => ?_
  have el : lidx_main_v49 (ix3 b s o) k = ix3 b s k :=
    funext fun d => Fin.ext (by match d with | ⟨0, _⟩ => rfl | ⟨1, _⟩ => rfl | ⟨2, _⟩ => rfl)
  have er : ridx_main_v49 (ix3 b s o) k = ix2 k o :=
    funext fun d => Fin.ext (by match d with | ⟨0, _⟩ => rfl | ⟨1, _⟩ => rfl)
  rw [el, er, weight_apply]

end Cert.ReferenceIdeal.RefValue

end
-- ==== Proof.lean ====
/-
  A dequantising linear layer: int4 weights packed eight to a 32-bit word, unpacked, shifted by a per-channel zero
  point and scaled per channel, multiplied into the activations, plus a bias.

  The kernel walks a grid of 8 column tiles × 64 row blocks. At the first row block of a tile it unpacks and
  dequantises the tile's weight into a scratch that it then keeps for the tile's other 63 row blocks; every point
  multiplies its activation block into that scratch and adds the bias row. The reference unpacks the whole weight,
  dequantises it and contracts once. Over the extended reals both are
    `out[b, s, o] = (∑ i, x[b, s, i] * ((q[i] - zero[o]) * scale[o])) + bias[o]`
  with `q[i]` value `i % 8` of packed word `(i / 8, o)` (`Dequant.linear`): the casts to bf16 are the identity
  there, a matrix product into a zero accumulator is the plain sum, and the two programs apply the same integer
  operations to the same words. No algebraic law beyond reading both sides at an index is needed, so the
  finiteness of the inputs is never used.

  The kernel's side is `KernelIdeal.Linear.run` (the invariant of the carried scratch by induction on the grid point,
  the blocks tiling the result, the host reshape after the region); the reference's is `RefValue.result_eq` over
  its run read one operation at a time.
-/
import proofs.«427034_j73821897883660_2_alg».proof.Defs
import proofs.«427034_j73821897883660_2_alg».proof.Proof.Gen.Kernel
import proofs.«427034_j73821897883660_2_alg».proof.Proof.Gen.Kernel.Skeleton
import proofs.«427034_j73821897883660_2_alg».proof.Proof.Gen.Kernel.Launch
import proofs.«427034_j73821897883660_2_alg».proof.Proof.Gen.Kernel.Points
import proofs.«427034_j73821897883660_2_alg».proof.Proof.Gen.Kernel.Frame
import proofs.«427034_j73821897883660_2_alg».proof.Proof.Gen.KernelIdeal
import proofs.«427034_j73821897883660_2_alg».proof.Proof.Gen.KernelIdeal.Skeleton
import proofs.«427034_j73821897883660_2_alg».proof.Proof.Gen.KernelIdeal.Launch
import proofs.«427034_j73821897883660_2_alg».proof.Proof.Gen.KernelIdeal.Points
import proofs.«427034_j73821897883660_2_alg».proof.Proof.Gen.KernelIdeal.Frame
import proofs.«427034_j73821897883660_2_alg».proof.Proof.Gen.ReferenceIdeal
import proofs.«427034_j73821897883660_2_alg».proof.Proof.Gen.Pre_finite_inputs
import proofs.«427034_j73821897883660_2_alg».proof.Proof.Gen.ReferenceIdeal.Run
import proofs.«427034_j73821897883660_2_alg».proof.Proof.Gen.ReferenceIdeal.Read
import proofs.«427034_j73821897883660_2_alg».proof.Proof.KernelRun
import proofs.«427034_j73821897883660_2_alg».proof.Proof.RefValue
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end at `Dequant.linear` of arguments that agree. -/
theorem algebraic : Cert.algebraic_KernelIdeal_ReferenceIdeal := by
  intro m ρ m' ρ' _ hagree
  refine ⟨fun c => Cert.KernelIdeal.Linear.result m c, Cert.KernelIdeal.Linear.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v52_eq _ _ _ _ _).trans ((Cert.ReferenceIdeal.RefValue.result_eq _ _ _ _ _).trans ?_)
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
